-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x64 .f32) (main_arg9 : FVec F S64 .f32) (main_arg10 : FVec F S64x64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S10000x64 : Shape := ⟨2, ![10000, 64]⟩

abbrev nBuf : Space → Nat
  | .hbm => 87
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S100000x1, .f32⟩
  | .hbm, ⟨41, _⟩ => ⟨S100000x64, .f32⟩
  | .hbm, ⟨42, _⟩ => ⟨S100000x64, .f32⟩
  | .hbm, ⟨43, _⟩ => ⟨S64x64, .f32⟩
  | .hbm, ⟨44, _⟩ => ⟨S64x64, .f32⟩
  | .hbm, ⟨45, _⟩ => ⟨S1x64, .f32⟩
  | .hbm, ⟨46, _⟩ => ⟨S100000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S100000x1, .f32⟩
  | .hbm, ⟨61, _⟩ => ⟨S100000x64, .f32⟩
  | .hbm, ⟨62, _⟩ => ⟨S100000x64, .f32⟩
  | .hbm, ⟨63, _⟩ => ⟨S64x64, .f32⟩
  | .hbm, ⟨64, _⟩ => ⟨S64x64, .f32⟩
  | .hbm, ⟨65, _⟩ => ⟨S1x64, .f32⟩
  | .hbm, ⟨66, _⟩ => ⟨S100000x64, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x64, .f32⟩
  | .hbm, ⟨76, _⟩ => ⟨S_, .f32⟩
  | .hbm, ⟨77, _⟩ => ⟨S100000x64, .f32⟩
  | .hbm, ⟨78, _⟩ => ⟨S1600000x1, .i32⟩
  | .hbm, ⟨79, _⟩ => ⟨S100000x64, .f32⟩
  | .hbm, ⟨80, _⟩ => ⟨S100000x1, .f32⟩
  | .hbm, ⟨81, _⟩ => ⟨S100000x64, .f32⟩
  | .hbm, ⟨82, _⟩ => ⟨S100000x64, .f32⟩
  | .hbm, ⟨83, _⟩ => ⟨S64x64, .f32⟩
  | .hbm, ⟨84, _⟩ => ⟨S64x64, .f32⟩
  | .hbm, ⟨85, _⟩ => ⟨S1x64, .f32⟩
  | .hbm, ⟨86, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S10000x64, .f32⟩
  | .local _ .vmem, ⟨26, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v24) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 105
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S100000x1, .f32⟩
  | .hbm, ⟨41, _⟩ => ⟨S100000x64, .f32⟩
  | .hbm, ⟨42, _⟩ => ⟨S100000x64, .f32⟩
  | .hbm, ⟨43, _⟩ => ⟨S64x64, .f32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S64x64, .f32⟩
  | .hbm, ⟨49, _⟩ => ⟨S100000x64, .f32⟩
  | .hbm, ⟨50, _⟩ => ⟨S100000x64, .f32⟩
  | .hbm, ⟨51, _⟩ => ⟨S_, .f32⟩
  | .hbm, ⟨52, _⟩ => ⟨S100000x64, .f32⟩
  | .hbm, ⟨53, _⟩ => ⟨S100000x64, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .f32⟩
  | .hbm, ⟨63, _⟩ => ⟨S_, .f32⟩
  | .hbm, ⟨64, _⟩ => ⟨S100000x64, .f32⟩
  | .hbm, ⟨65, _⟩ => ⟨S1600000x1, .i32⟩
  | .hbm, ⟨66, _⟩ => ⟨S100000x64, .f32⟩
  | .hbm, ⟨67, _⟩ => ⟨S100000x1, .f32⟩
  | .hbm, ⟨68, _⟩ => ⟨S100000x64, .f32⟩
  | .hbm, ⟨69, _⟩ => ⟨S100000x64, .f32⟩
  | .hbm, ⟨70, _⟩ => ⟨S64x64, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S64x64, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S100000x64, .f32⟩
  | .hbm, ⟨80, _⟩ => ⟨S100000x64, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x64, .f32⟩
  | .hbm, ⟨90, _⟩ => ⟨S_, .f32⟩
  | .hbm, ⟨91, _⟩ => ⟨S100000x64, .f32⟩
  | .hbm, ⟨92, _⟩ => ⟨S1600000x1, .i32⟩
  | .hbm, ⟨93, _⟩ => ⟨S100000x64, .f32⟩
  | .hbm, ⟨94, _⟩ => ⟨S100000x1, .f32⟩
  | .hbm, ⟨95, _⟩ => ⟨S100000x64, .f32⟩
  | .hbm, ⟨96, _⟩ => ⟨S100000x64, .f32⟩
  | .hbm, ⟨97, _⟩ => ⟨S64x64, .f32⟩
  | .hbm, ⟨98, _⟩ => ⟨S100000x64, .f32⟩
  | .hbm, ⟨99, _⟩ => ⟨S1x64, .f32⟩
  | .hbm, ⟨100, _⟩ => ⟨S100000x64, .f32⟩
  | .hbm, ⟨101, _⟩ => ⟨S100000x64, .f32⟩
  | .hbm, ⟨102, _⟩ => ⟨S64x64, .f32⟩
  | .hbm, ⟨103, _⟩ => ⟨S100000x64, .f32⟩
  | .hbm, ⟨104, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call0_cst : Ref sig .tc := ⟨.hbm, 51, rfl⟩
abbrev main_call0_v0 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call1_cst : Ref sig .tc := ⟨.hbm, 78, rfl⟩
abbrev main_call1_v0 : Ref sig .tc := ⟨.hbm, 79, rfl⟩
abbrev main_v55 : Ref sig .tc := ⟨.hbm, 80, rfl⟩
abbrev main_c_8 : Ref sig .tc := ⟨.hbm, 81, rfl⟩
abbrev main_v56 : Ref sig .tc := ⟨.hbm, 82, rfl⟩
abbrev main_v57 : Ref sig .tc := ⟨.hbm, 83, rfl⟩
abbrev main_c_9 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_10 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.Spec.lean ====
/-
  One layer of the network, index by index, over the extended reals.

  For node features `A` (the degree-scaled neighbour sums) and `H` (the layer's input), both `[M, 64]`, two weight
  matrices already transposed to `[in, out]`, and a bias row `[1, 64]`, the layer's entry `(p, q)` is

      act ( (Σ_k A[p,k] · WlT[k,q]  +  Σ_k H[p,k] · WrT[k,q])  +  b[0,q] ),

  `act` the identity or the maximum with zero. This is how the kernel groups the three summands. The reference adds
  the bias to the first product before it adds the second product; addition on the extended reals is commutative and
  associative, so the two groupings agree at every entry, with no finiteness needed (`sum_regroup`).
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«129662_j1039382086190_1_alg».proof.Proof.LibRowDims

noncomputable section

open scoped BigOperators

namespace Cert.Sage

open Idealize.ShloMosaic Idealize.ShloMosaic.ValueIdx

/-- The maximum with the float zero, the activation of the first two layers. -/
def relu0 (v : EReal) : EReal := max v (Ideal.ofBits .f32 0x00000000#32)

/-- The dense part of a layer at the entry `(p, q)`: the two products' sums first, the bias row's entry last. -/
def denseAt {M : Nat} (A H : (⟨2, ![M, 64]⟩ : Shape).Idx → EReal) (WlT WrT : (⟨2, ![64, 64]⟩ : Shape).Idx → EReal)
    (b : (⟨2, ![1, 64]⟩ : Shape).Idx → EReal) (p : Fin M) (q : Fin 64) : EReal :=
  (∑ k : Fin 64, A (ix2 p k) * WlT (ix2 k q) + ∑ k : Fin 64, H (ix2 p k) * WrT (ix2 k q)) + b (ix2 (0 : Fin 1) q)

/-- A whole layer: the activation of the dense part, entry by entry. -/
def layerT {M : Nat} (act : EReal → EReal) (A H : (⟨2, ![M, 64]⟩ : Shape).Idx → EReal)
    (WlT : (⟨2, ![64, 64]⟩ : Shape).Idx → EReal) (b : (⟨2, ![1, 64]⟩ : Shape).Idx → EReal)
    (WrT : (⟨2, ![64, 64]⟩ : Shape).Idx → EReal) : (⟨2, ![M, 64]⟩ : Shape).Idx → EReal :=
  fun i => act (denseAt A H WlT WrT b (i 0) (i 1))

theorem layerT_ix2 {M : Nat} (act : EReal → EReal) (A H : (⟨2, ![M, 64]⟩ : Shape).Idx → EReal)
    (WlT : (⟨2, ![64, 64]⟩ : Shape).Idx → EReal) (b : (⟨2, ![1, 64]⟩ : Shape).Idx → EReal)
    (WrT : (⟨2, ![64, 64]⟩ : Shape).Idx → EReal) (p : Fin M) (q : Fin 64) :
    layerT act A H WlT b WrT (ix2 p q) = act (denseAt A H WlT WrT b p q) := rfl

/-- The one law between the two programs: the bias may be added before or after the second product. -/
theorem sum_regroup (a c b : EReal) : (a + c) + b = (a + b) + c := add_right_comm a c b

/-- A layer read on a block of rows is the layer of the blocks: row `p` of the block starting at row `o` is row
    `o + p` of the array, and the weights and the bias do not depend on the row. -/
theorem layerT_rows {M B : Nat} (act : EReal → EReal) (A H : (⟨2, ![M, 64]⟩ : Shape).Idx → EReal)
    (WlT : (⟨2, ![64, 64]⟩ : Shape).Idx → EReal) (b : (⟨2, ![1, 64]⟩ : Shape).Idx → EReal)
    (WrT : (⟨2, ![64, 64]⟩ : Shape).Idx → EReal) (Ab Hb : (⟨2, ![B, 64]⟩ : Shape).Idx → EReal)
    (row : Fin B → Fin M) (hA : ∀ p k, Ab (ix2 p k) = A (ix2 (row p) k)) (hH : ∀ p k, Hb (ix2 p k) = H (ix2 (row p) k))
    (p : Fin B) (q : Fin 64) :
    layerT act Ab Hb WlT b WrT (ix2 p q) = layerT act A H WlT b WrT (ix2 (row p) q) := by
  rw [layerT_ix2, layerT_ix2]
  unfold denseAt
  simp only [hA, hH]

/-- The kernel bodies' arithmetic read at one entry: each product goes into a zero accumulator, so it is the plain sum
    over the 64 input channels of its operands' entries (whatever float format the operands were narrowed to: on the
    extended reals a change of format is the identity), and the bias row, broadcast over the rows, reads its entry in
    the output's column. -/
theorem dense_block_apply {M : Nat} {φ : FTy} (D : DotDims ⟨2, ![M, 64]⟩ ⟨2, ![64, 64]⟩ ⟨2, ![M, 64]⟩)
    (hD : D = DotDims.plain M 64 64) (a0 a1 : FVec Ideal ⟨2, ![M, 64]⟩ φ) (w2 w4 : FVec Ideal ⟨2, ![64, 64]⟩ φ)
    (x3 : FVec Ideal ⟨2, ![1, 64]⟩ .f32) (hbc : (⟨2, ![1, 64]⟩ : Shape).Broadcasts ⟨2, ![M, 64]⟩) (p : Fin M) (q : Fin 64) :
    addf (addf (matmul D none a0 w2 (constant (F := Ideal) ⟨2, ![M, 64]⟩ .f32 0x00000000#32))
        (matmul D none a1 w4 (constant (F := Ideal) ⟨2, ![M, 64]⟩ .f32 0x00000000#32)))
      (broadcastTo ⟨2, ![M, 64]⟩ x3 hbc) (ix2 p q)
    = denseAt a0 a1 w2 w4 x3 p q := by
  subst hD
  unfold denseAt
  rw [addf_apply, addf_apply]
  show FloatOps.matmul (F := Ideal) (DotDims.plain M 64 64) none a0 w2 (constant ⟨2, ![M, 64]⟩ .f32 0x00000000#32) (ix2 p q)
      + FloatOps.matmul (F := Ideal) (DotDims.plain M 64 64) none a1 w4 (constant ⟨2, ![M, 64]⟩ .f32 0x00000000#32) (ix2 p q)
      + broadcastTo ⟨2, ![M, 64]⟩ x3 hbc (ix2 p q) = _
  rw [RowDims.matmul_plain_zero_apply, RowDims.matmul_plain_zero_apply, broadcastTo_1b_ab_apply]

/-- The reference's layer, as the host computes it on whole arrays — `(A · WlT + bias) + H · WrT` with the bias vector
    broadcast over the rows — is the layer above with the bias as a row: the same three summands at every entry. -/
theorem refLayer_eq {M : Nat} (D : DotDims ⟨2, ![M, 64]⟩ ⟨2, ![64, 64]⟩ ⟨2, ![M, 64]⟩) (hD : D = DotDims.plain M 64 64)
    (hb1 : (⟨1, ![64]⟩ : Shape).BroadcastsInDim ⟨2, ![1, 64]⟩ (![1] : Fin 1 → Fin 2))
    (hb2 : (⟨2, ![1, 64]⟩ : Shape).BroadcastsInDim ⟨2, ![M, 64]⟩ (![0, 1] : Fin 2 → Fin 2))
    (hsc : (⟨1, ![64]⟩ : Shape).ShapeCasts ⟨2, ![1, 64]⟩)
    (A H : FVec Ideal ⟨2, ![M, 64]⟩ .f32) (WlT WrT : FVec Ideal ⟨2, ![64, 64]⟩ .f32) (b : FVec Ideal ⟨1, ![64]⟩ .f32) :
    addf (addf (Host.dotGeneral D none A WlT)
        (broadcastInDim ⟨2, ![M, 64]⟩ ![0, 1] hb2 (broadcastInDim ⟨2, ![1, 64]⟩ ![1] hb1 b)))
      (Host.dotGeneral D none H WrT)
    = layerT (fun v => v) A H WlT (shapeCast ⟨2, ![1, 64]⟩ b hsc) WrT := by
  subst hD
  funext j
  obtain ⟨p, q, rfl⟩ : ∃ (p : Fin M) (q : Fin 64), j = ix2 p q := ⟨j 0, j 1, eq_ix2 j⟩
  rw [layerT_ix2]
  unfold denseAt
  rw [addf_apply, addf_apply]
  show (FloatOps.dotGeneral (DotDims.plain M 64 64) none .single A WlT (ix2 p q) + _)
    + FloatOps.dotGeneral (DotDims.plain M 64 64) none .single H WrT (ix2 p q) = _
  rw [RowDims.dotGeneral_plain_apply, RowDims.dotGeneral_plain_apply]
  -- the bias vector broadcast to a row and then over the rows reads its entry q; so does the vector cast to a row
  have hbias : broadcastInDim ⟨2, ![M, 64]⟩ ![0, 1] hb2 (broadcastInDim ⟨2, ![1, 64]⟩ ![1] hb1 b) (ix2 p q) = b (ix1 q) := by
    rw [broadcastInDim_apply (![0, 1] : Fin 2 → Fin 2) hb2 _ (ix2 p q) (ix2 (0 : Fin 1) q) (fun a => by
      match a with
      | ⟨0, _⟩ => rfl
      | ⟨1, _⟩ => rfl)]
    exact broadcastInDim_apply (![1] : Fin 1 → Fin 2) hb1 b (ix2 (0 : Fin 1) q) (ix1 q) (fun a => by
      match a with
      | ⟨0, _⟩ => rfl)
  rw [hbias, shapeCast_a_1a_apply b hsc (0 : Fin 1) q]
  exact (sum_regroup _ _ _).symm

end Cert.Sage

end
-- ==== Proof.Block.lean ====
/-
  What each of the three kernel bodies stores, as a function of the blocks it loads: one layer (`Cert.Sage.layerT`) of
  a block of 10000 rows. Layers 0 and 1 end in the maximum with zero, layer 2 does not.
-/
import proofs.«129662_j1039382086190_1_alg».proof.Proof.Gen.KernelIdeal.Skeleton
import proofs.«129662_j1039382086190_1_alg».proof.Proof.Spec

noncomputable section

open scoped BigOperators

namespace Cert.KernelIdeal.Sage

open Idealize.ShloMosaic Idealize.ShloMosaic.ValueIdx Idealize.ShloMosaic.Pipeline Cert.KernelIdeal Cert.KernelIdeal.Gen Cert.Sage

/-- The kernels' product is the plain one: `[10000, 64] × [64, 64]`, the left operand's columns against the right
    operand's rows. -/
theorem dot_eq_plain : dot_S10000x64_S64x64_S10000x64_1_0_0_1_n_n = DotDims.plain 10000 64 64 := rfl

/-- Layer 0's stored value: the dense part of its loaded blocks (the casts of a block to its own shape dropped),
    clamped below at zero. -/
theorem pay0_eq (x0 x1 : Vec Ideal S10000x64 .f32) (x2 x4 : Vec Ideal S64x64 .f32) (x3 : Vec Ideal S1x64 .f32) :
    k0_pay1 (F := Ideal) x0 x1 x2 x4 x3 = layerT relu0 x0 x1 x2 x3 x4 := by
  funext j
  obtain ⟨p, q, rfl⟩ : ∃ (p : Fin 10000) (q : Fin 64), j = ix2 p q := ⟨j 0, j 1, eq_ix2 j⟩
  rw [layerT_ix2]
  unfold k0_pay1
  simp only [shapeCast_self]
  exact congrArg relu0 (dense_block_apply (φ := .bf16) _ dot_eq_plain (truncf .bf16 x0 bitsLt_bf16_f32)
    (truncf .bf16 x1 bitsLt_bf16_f32) (truncf .bf16 x2 bitsLt_bf16_f32) (truncf .bf16 x4 bitsLt_bf16_f32) x3
    broadcasts_S1x64_S10000x64 p q)

/-- Layer 1's stored value: as layer 0's (here the second block too passes through a cast to its own shape). -/
theorem pay1_eq (x0 x1 : Vec Ideal S10000x64 .f32) (x2 x4 : Vec Ideal S64x64 .f32) (x3 : Vec Ideal S1x64 .f32) :
    k1_pay1 (F := Ideal) x0 x1 x2 x4 x3 = layerT relu0 x0 x1 x2 x3 x4 := by
  funext j
  obtain ⟨p, q, rfl⟩ : ∃ (p : Fin 10000) (q : Fin 64), j = ix2 p q := ⟨j 0, j 1, eq_ix2 j⟩
  rw [layerT_ix2]
  unfold k1_pay1
  simp only [shapeCast_self]
  exact congrArg relu0 (dense_block_apply (φ := .bf16) _ dot_eq_plain (truncf .bf16 x0 bitsLt_bf16_f32)
    (truncf .bf16 x1 bitsLt_bf16_f32) (truncf .bf16 x2 bitsLt_bf16_f32) (truncf .bf16 x4 bitsLt_bf16_f32) x3
    broadcasts_S1x64_S10000x64 p q)

/-- Layer 2's stored value: the dense part alone, no clamp. -/
theorem pay2_eq (x0 x1 : Vec Ideal S10000x64 .f32) (x2 x4 : Vec Ideal S64x64 .f32) (x3 : Vec Ideal S1x64 .f32) :
    k2_pay1 (F := Ideal) x0 x1 x2 x4 x3 = layerT (fun v => v) x0 x1 x2 x3 x4 := by
  funext j
  obtain ⟨p, q, rfl⟩ : ∃ (p : Fin 10000) (q : Fin 64), j = ix2 p q := ⟨j 0, j 1, eq_ix2 j⟩
  rw [layerT_ix2]
  unfold k2_pay1
  simp only [shapeCast_self]
  exact dense_block_apply (φ := .bf16) _ dot_eq_plain (truncf .bf16 x0 bitsLt_bf16_f32)
    (truncf .bf16 x1 bitsLt_bf16_f32) (truncf .bf16 x2 bitsLt_bf16_f32) (truncf .bf16 x4 bitsLt_bf16_f32) x3
    broadcasts_S1x64_S10000x64 p q

end Cert.KernelIdeal.Sage

end
-- ==== Proof.Rows.lean ====
/-
  Rows of a row-blocked window: with blocks of 10000 rows over an array of 100000 rows, row `p` of block `n` is row
  `10000·n + p` of the array.
-/
import Idealize.ShloMosaic.Shape
import Mathlib.Tactic.FinCases

namespace Cert.Sage

theorem offsets_zero : (![0, 0] : Fin 2 → Nat) = fun _ => 0 := funext fun a => by fin_cases a <;> rfl

/-- Row `p` of the block of grid point `n` is row `10000·n + p` of the array. -/
def rowAt (n : Nat) (hn : n ≤ 9) (p : Fin 10000) : Fin 100000 := ⟨n * 10000 + p.val, by have := p.isLt; omega⟩

end Cert.Sage
-- ==== Proof.Region0.lean ====
/-
  The first pallas_call's output array, whatever the buffers hold when it is entered: one layer (with the clamp at zero) of
  its two row-blocked inputs, its two weight matrices and its bias row, as whole arrays.

  Grid point `t` (of 10) works on rows `10000·t … 10000·t + 9999`: the row-blocked windows and the output move together,
  the weights and the bias are the same whole arrays at every point; the ten output blocks tile the 100000 rows.
-/
import proofs.«129662_j1039382086190_1_alg».proof.Proof.Gen.KernelIdeal.Frame
import proofs.«129662_j1039382086190_1_alg».proof.Proof.Block
import proofs.«129662_j1039382086190_1_alg».proof.Proof.Rows

set_option maxRecDepth 16384

noncomputable section

open scoped BigOperators

namespace Cert.KernelIdeal.Sage

open Idealize.ShloMosaic Idealize.ShloMosaic.TcCoe Idealize.ShloMosaic.ValueIdx Idealize.ShloMosaic.Pipeline
open Idealize.SL.Sem Cert.KernelIdeal Cert.KernelIdeal.Gen Cert.Sage

variable (V : (c : Dev nD) → (b : Ref sig .tc) → Buf (Elt Ideal) ((c : Thread nD τ).loc b))

/-- The printed index maps over the grid: the row-blocked windows (0, 1 and the output 5) take block `t` of the rows, the
    weights (2, 4) and the bias (3) always block 0; all take block 0 of the columns. -/
theorem idx0 : ∀ t : Fin cfg0.N, t.val ≤ 9
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The neighbour-sum window's block at `t`, read at `(p, k)`. -/
theorem blk0_agg (c : Dev nD) (t : Fin cfg0.N) (hn : t.val ≤ 9) (p : Fin 10000) (k : Fin 64) :
    iblk0 V c 0 t (ix2 p k) = V c main_v24 (ix2 (rowAt t.val hn p) k) := by
  obtain ⟨-, e0, e1, -⟩ := idx0 t
  show V c main_v24 (((cfg0.win 0).blk t).view.emb (ix2 p k)) = _
  refine congrArg (V c main_v24) (funext fun a => Fin.ext ?_)
  match a with
  | ⟨0, _⟩ => show win0_0.index t (0 : Fin 2) * 10000 + 1 * p.val = t.val * 10000 + p.val; omega
  | ⟨1, _⟩ => show win0_0.index t (1 : Fin 2) * 64 + 1 * k.val = k.val; omega

/-- The input-feature window's block at `t`, read at `(p, k)`. -/
theorem blk0_feat (c : Dev nD) (t : Fin cfg0.N) (hn : t.val ≤ 9) (p : Fin 10000) (k : Fin 64) :
    iblk0 V c 1 t (ix2 p k) = V c main_arg0 (ix2 (rowAt t.val hn p) k) := by
  obtain ⟨-, -, -, e0, e1, -⟩ := idx0 t
  show V c main_arg0 (((cfg0.win 1).blk t).view.emb (ix2 p k)) = _
  refine congrArg (V c main_arg0) (funext fun a => Fin.ext ?_)
  match a with
  | ⟨0, _⟩ => show win0_1.index t (0 : Fin 2) * 10000 + 1 * p.val = t.val * 10000 + p.val; omega
  | ⟨1, _⟩ => show win0_1.index t (1 : Fin 2) * 64 + 1 * k.val = k.val; omega

/-- The first weight window's block is the whole matrix at every point. -/
theorem blk0_wl (c : Dev nD) (t : Fin cfg0.N) : iblk0 V c 2 t = V c main_v25 := by
  obtain ⟨-, -, -, -, -, e0, e1, -⟩ := idx0 t
  funext y
  show V c main_v25 (((cfg0.win 2).blk t).view.emb y) = V c main_v25 y
  refine congrArg (V c main_v25) (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- The bias window's block is the whole row at every point. -/
theorem blk0_bias (c : Dev nD) (t : Fin cfg0.N) : iblk0 V c 3 t = V c main_v27 := by
  obtain ⟨-, -, -, -, -, -, -, e0, e1, -⟩ := idx0 t
  funext y
  show V c main_v27 (((cfg0.win 3).blk t).view.emb y) = V c main_v27 y
  refine congrArg (V c main_v27) (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- The second weight window's block is the whole matrix at every point. -/
theorem blk0_wr (c : Dev nD) (t : Fin cfg0.N) : iblk0 V c 4 t = V c main_v26 := by
  obtain ⟨-, -, -, -, -, -, -, -, -, e0, e1, -⟩ := idx0 t
  funext y
  show V c main_v26 (((cfg0.win 4).blk t).view.emb y) = V c main_v26 y
  refine congrArg (V c main_v26) (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- What point `t` writes back is block `t` of the layer of the whole arrays. -/
theorem flushed0 (c : Dev nD) (t : Fin cfg0.N) :
    (dat0 V c).flushed 5 t = ((cfg0.win 5).blk t).view.read (Elt Ideal)
      (layerT relu0 (V c main_v24) (V c main_arg0) (V c main_v25) (V c main_v27) (V c main_v26)) := by
  show (cfg0.win 5).cut (grid0.coords t) ((dat0 V c).after 5 t) = _
  rw [after0_5]
  unfold out0_5
  rw [View.canon_unit_zero offsets_zero]
  simp only [View.ld_unit_zero (S := S10000x64) offsets_zero, View.ld_unit_zero (S := S64x64) offsets_zero,
    View.ld_unit_zero (S := S1x64) offsets_zero]
  rw [pay0_eq, blk0_wl, blk0_bias, blk0_wr]
  obtain ⟨hn, -, -, -, -, -, -, -, -, -, -, e0, e1⟩ := idx0 t
  funext j
  obtain ⟨p, q, rfl⟩ : ∃ (p : Fin 10000) (q : Fin 64), j = ix2 p q := ⟨j 0, j 1, eq_ix2 j⟩
  -- the output block's entry (p, q) is the array's entry (10000·t + p, q)
  have hemb : ((cfg0.win 5).blk t).view.emb (ix2 p q) = ix2 (rowAt t.val hn p) q := by
    funext a; apply Fin.ext
    match a with
    | ⟨0, _⟩ => show win0_5.index t (0 : Fin 2) * 10000 + 1 * p.val = t.val * 10000 + p.val; omega
    | ⟨1, _⟩ => show win0_5.index t (1 : Fin 2) * 64 + 1 * q.val = q.val; omega
  show layerT relu0 (iblk0 V c 0 t) (iblk0 V c 1 t) (V c main_v25) (V c main_v27) (V c main_v26) (ix2 p q)
    = layerT relu0 (V c main_v24) (V c main_arg0) (V c main_v25) (V c main_v27) (V c main_v26)
        (((cfg0.win 5).blk t).view.emb (ix2 p q))
  rw [hemb]
  exact layerT_rows relu0 (V c main_v24) (V c main_arg0) (V c main_v25) (V c main_v27) (V c main_v26)
    (iblk0 V c 0 t) (iblk0 V c 1 t) (rowAt t.val hn) (blk0_agg V c t hn) (blk0_feat V c t hn) p q

/-- An index of the output array is in point `t`'s block iff each coordinate is in the block's range on its axis. -/
theorem mem_blk0 (t : Fin cfg0.N) (i : S100000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v28).slice (win0_5.rect t)).set ↔ _
  rw [View.set_slice_whole, Rect.mem_set_unit]
  exact Iff.rfl

/-- Every entry of the output array is in the block of the point that works on its row. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, by rw [show cfg0.N = 10 from N_0]; omega⟩, rfl⟩
  obtain ⟨-, -, -, -, -, -, -, -, -, -, -, e0, e1⟩ := idx0 t
  refine ⟨t, flush0_5 t, ?_⟩
  rw [mem_blk0]
  intro a
  match a with
  | ⟨0, _⟩ =>
    show win0_5.index t (0 : Fin 2) * 10000 ≤ (i 0).val ∧ (i 0).val < win0_5.index t (0 : Fin 2) * 10000 + 10000
    omega
  | ⟨1, _⟩ =>
    show win0_5.index t (1 : Fin 2) * 64 ≤ (i 1).val ∧ (i 1).val < win0_5.index t (1 : Fin 2) * 64 + 64
    omega

/-- The output array after the region: the layer of the arrays the region was entered with. -/
theorem region0_out (c : Dev nD) :
    (dat0 V c).arrAt 5 cfg0.N
      = layerT relu0 (V c main_v24) (V c main_arg0) (V c main_v25) (V c main_v27) (V c main_v26) :=
  (dat0 V c).arrAt_eq_of_cover 5 _ (fun t _ => flushed0 V c t) cover0

end Cert.KernelIdeal.Sage

end
-- ==== Proof.Region1.lean ====
/-
  The second pallas_call's output array, whatever the buffers hold when it is entered: one layer (with the clamp at zero) of
  its two row-blocked inputs, its two weight matrices and its bias row, as whole arrays.

  Grid point `t` (of 10) works on rows `10000·t … 10000·t + 9999`: the row-blocked windows and the output move together,
  the weights and the bias are the same whole arrays at every point; the ten output blocks tile the 100000 rows.
-/
import proofs.«129662_j1039382086190_1_alg».proof.Proof.Gen.KernelIdeal.Frame
import proofs.«129662_j1039382086190_1_alg».proof.Proof.Block
import proofs.«129662_j1039382086190_1_alg».proof.Proof.Rows

set_option maxRecDepth 16384

noncomputable section

open scoped BigOperators

namespace Cert.KernelIdeal.Sage

open Idealize.ShloMosaic Idealize.ShloMosaic.TcCoe Idealize.ShloMosaic.ValueIdx Idealize.ShloMosaic.Pipeline
open Idealize.SL.Sem Cert.KernelIdeal Cert.KernelIdeal.Gen Cert.Sage

variable (V : (c : Dev nD) → (b : Ref sig .tc) → Buf (Elt Ideal) ((c : Thread nD τ).loc b))

/-- The printed index maps over the grid: the row-blocked windows (0, 1 and the output 5) take block `t` of the rows, the
    weights (2, 4) and the bias (3) always block 0; all take block 0 of the columns. -/
theorem idx1 : ∀ t : Fin cfg1.N, t.val ≤ 9
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The neighbour-sum window's block at `t`, read at `(p, k)`. -/
theorem blk1_agg (c : Dev nD) (t : Fin cfg1.N) (hn : t.val ≤ 9) (p : Fin 10000) (k : Fin 64) :
    iblk1 V c 0 t (ix2 p k) = V c main_v41 (ix2 (rowAt t.val hn p) k) := by
  obtain ⟨-, e0, e1, -⟩ := idx1 t
  show V c main_v41 (((cfg1.win 0).blk t).view.emb (ix2 p k)) = _
  refine congrArg (V c main_v41) (funext fun a => Fin.ext ?_)
  match a with
  | ⟨0, _⟩ => show win1_0.index t (0 : Fin 2) * 10000 + 1 * p.val = t.val * 10000 + p.val; omega
  | ⟨1, _⟩ => show win1_0.index t (1 : Fin 2) * 64 + 1 * k.val = k.val; omega

/-- The input-feature window's block at `t`, read at `(p, k)`. -/
theorem blk1_feat (c : Dev nD) (t : Fin cfg1.N) (hn : t.val ≤ 9) (p : Fin 10000) (k : Fin 64) :
    iblk1 V c 1 t (ix2 p k) = V c main_v28 (ix2 (rowAt t.val hn p) k) := by
  obtain ⟨-, -, -, e0, e1, -⟩ := idx1 t
  show V c main_v28 (((cfg1.win 1).blk t).view.emb (ix2 p k)) = _
  refine congrArg (V c main_v28) (funext fun a => Fin.ext ?_)
  match a with
  | ⟨0, _⟩ => show win1_1.index t (0 : Fin 2) * 10000 + 1 * p.val = t.val * 10000 + p.val; omega
  | ⟨1, _⟩ => show win1_1.index t (1 : Fin 2) * 64 + 1 * k.val = k.val; omega

/-- The first weight window's block is the whole matrix at every point. -/
theorem blk1_wl (c : Dev nD) (t : Fin cfg1.N) : iblk1 V c 2 t = V c main_v42 := by
  obtain ⟨-, -, -, -, -, e0, e1, -⟩ := idx1 t
  funext y
  show V c main_v42 (((cfg1.win 2).blk t).view.emb y) = V c main_v42 y
  refine congrArg (V c main_v42) (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- The bias window's block is the whole row at every point. -/
theorem blk1_bias (c : Dev nD) (t : Fin cfg1.N) : iblk1 V c 3 t = V c main_v44 := by
  obtain ⟨-, -, -, -, -, -, -, e0, e1, -⟩ := idx1 t
  funext y
  show V c main_v44 (((cfg1.win 3).blk t).view.emb y) = V c main_v44 y
  refine congrArg (V c main_v44) (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- The second weight window's block is the whole matrix at every point. -/
theorem blk1_wr (c : Dev nD) (t : Fin cfg1.N) : iblk1 V c 4 t = V c main_v43 := by
  obtain ⟨-, -, -, -, -, -, -, -, -, e0, e1, -⟩ := idx1 t
  funext y
  show V c main_v43 (((cfg1.win 4).blk t).view.emb y) = V c main_v43 y
  refine congrArg (V c main_v43) (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- What point `t` writes back is block `t` of the layer of the whole arrays. -/
theorem flushed1 (c : Dev nD) (t : Fin cfg1.N) :
    (dat1 V c).flushed 5 t = ((cfg1.win 5).blk t).view.read (Elt Ideal)
      (layerT relu0 (V c main_v41) (V c main_v28) (V c main_v42) (V c main_v44) (V c main_v43)) := by
  show (cfg1.win 5).cut (grid1.coords t) ((dat1 V c).after 5 t) = _
  rw [after1_5]
  unfold out1_5
  rw [View.canon_unit_zero offsets_zero]
  simp only [View.ld_unit_zero (S := S10000x64) offsets_zero, View.ld_unit_zero (S := S64x64) offsets_zero,
    View.ld_unit_zero (S := S1x64) offsets_zero]
  rw [pay1_eq, blk1_wl, blk1_bias, blk1_wr]
  obtain ⟨hn, -, -, -, -, -, -, -, -, -, -, e0, e1⟩ := idx1 t
  funext j
  obtain ⟨p, q, rfl⟩ : ∃ (p : Fin 10000) (q : Fin 64), j = ix2 p q := ⟨j 0, j 1, eq_ix2 j⟩
  -- the output block's entry (p, q) is the array's entry (10000·t + p, q)
  have hemb : ((cfg1.win 5).blk t).view.emb (ix2 p q) = ix2 (rowAt t.val hn p) q := by
    funext a; apply Fin.ext
    match a with
    | ⟨0, _⟩ => show win1_5.index t (0 : Fin 2) * 10000 + 1 * p.val = t.val * 10000 + p.val; omega
    | ⟨1, _⟩ => show win1_5.index t (1 : Fin 2) * 64 + 1 * q.val = q.val; omega
  show layerT relu0 (iblk1 V c 0 t) (iblk1 V c 1 t) (V c main_v42) (V c main_v44) (V c main_v43) (ix2 p q)
    = layerT relu0 (V c main_v41) (V c main_v28) (V c main_v42) (V c main_v44) (V c main_v43)
        (((cfg1.win 5).blk t).view.emb (ix2 p q))
  rw [hemb]
  exact layerT_rows relu0 (V c main_v41) (V c main_v28) (V c main_v42) (V c main_v44) (V c main_v43)
    (iblk1 V c 0 t) (iblk1 V c 1 t) (rowAt t.val hn) (blk1_agg V c t hn) (blk1_feat V c t hn) p q

/-- An index of the output array is in point `t`'s block iff each coordinate is in the block's range on its axis. -/
theorem mem_blk1 (t : Fin cfg1.N) (i : S100000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v45).slice (win1_5.rect t)).set ↔ _
  rw [View.set_slice_whole, Rect.mem_set_unit]
  exact Iff.rfl

/-- Every entry of the output array is in the block of the point that works on its row. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, by rw [show cfg1.N = 10 from N_1]; omega⟩, rfl⟩
  obtain ⟨-, -, -, -, -, -, -, -, -, -, -, e0, e1⟩ := idx1 t
  refine ⟨t, flush1_5 t, ?_⟩
  rw [mem_blk1]
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 64 ≤ (i 1).val ∧ (i 1).val < win1_5.index t (1 : Fin 2) * 64 + 64
    omega

/-- The output array after the region: the layer of the arrays the region was entered with. -/
theorem region1_out (c : Dev nD) :
    (dat1 V c).arrAt 5 cfg1.N
      = layerT relu0 (V c main_v41) (V c main_v28) (V c main_v42) (V c main_v44) (V c main_v43) :=
  (dat1 V c).arrAt_eq_of_cover 5 _ (fun t _ => flushed1 V c t) cover1

end Cert.KernelIdeal.Sage

end
-- ==== Proof.Region2.lean ====
/-
  The third pallas_call's output array, whatever the buffers hold when it is entered: one layer (without the clamp) of
  its two row-blocked inputs, its two weight matrices and its bias row, as whole arrays.

  Grid point `t` (of 10) works on rows `10000·t … 10000·t + 9999`: the row-blocked windows and the output move together,
  the weights and the bias are the same whole arrays at every point; the ten output blocks tile the 100000 rows.
-/
import proofs.«129662_j1039382086190_1_alg».proof.Proof.Gen.KernelIdeal.Frame
import proofs.«129662_j1039382086190_1_alg».proof.Proof.Block
import proofs.«129662_j1039382086190_1_alg».proof.Proof.Rows

set_option maxRecDepth 16384

noncomputable section

open scoped BigOperators

namespace Cert.KernelIdeal.Sage

open Idealize.ShloMosaic Idealize.ShloMosaic.TcCoe Idealize.ShloMosaic.ValueIdx Idealize.ShloMosaic.Pipeline
open Idealize.SL.Sem Cert.KernelIdeal Cert.KernelIdeal.Gen Cert.Sage

variable (V : (c : Dev nD) → (b : Ref sig .tc) → Buf (Elt Ideal) ((c : Thread nD τ).loc b))

/-- The printed index maps over the grid: the row-blocked windows (0, 1 and the output 5) take block `t` of the rows, the
    weights (2, 4) and the bias (3) always block 0; all take block 0 of the columns. -/
theorem idx2 : ∀ t : Fin cfg2.N, t.val ≤ 9
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The neighbour-sum window's block at `t`, read at `(p, k)`. -/
theorem blk2_agg (c : Dev nD) (t : Fin cfg2.N) (hn : t.val ≤ 9) (p : Fin 10000) (k : Fin 64) :
    iblk2 V c 0 t (ix2 p k) = V c main_v58 (ix2 (rowAt t.val hn p) k) := by
  obtain ⟨-, e0, e1, -⟩ := idx2 t
  show V c main_v58 (((cfg2.win 0).blk t).view.emb (ix2 p k)) = _
  refine congrArg (V c main_v58) (funext fun a => Fin.ext ?_)
  match a with
  | ⟨0, _⟩ => show win2_0.index t (0 : Fin 2) * 10000 + 1 * p.val = t.val * 10000 + p.val; omega
  | ⟨1, _⟩ => show win2_0.index t (1 : Fin 2) * 64 + 1 * k.val = k.val; omega

/-- The input-feature window's block at `t`, read at `(p, k)`. -/
theorem blk2_feat (c : Dev nD) (t : Fin cfg2.N) (hn : t.val ≤ 9) (p : Fin 10000) (k : Fin 64) :
    iblk2 V c 1 t (ix2 p k) = V c main_v45 (ix2 (rowAt t.val hn p) k) := by
  obtain ⟨-, -, -, e0, e1, -⟩ := idx2 t
  show V c main_v45 (((cfg2.win 1).blk t).view.emb (ix2 p k)) = _
  refine congrArg (V c main_v45) (funext fun a => Fin.ext ?_)
  match a with
  | ⟨0, _⟩ => show win2_1.index t (0 : Fin 2) * 10000 + 1 * p.val = t.val * 10000 + p.val; omega
  | ⟨1, _⟩ => show win2_1.index t (1 : Fin 2) * 64 + 1 * k.val = k.val; omega

/-- The first weight window's block is the whole matrix at every point. -/
theorem blk2_wl (c : Dev nD) (t : Fin cfg2.N) : iblk2 V c 2 t = V c main_v59 := by
  obtain ⟨-, -, -, -, -, e0, e1, -⟩ := idx2 t
  funext y
  show V c main_v59 (((cfg2.win 2).blk t).view.emb y) = V c main_v59 y
  refine congrArg (V c main_v59) (funext fun a => Fin.ext ?_)
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- The bias window's block is the whole row at every point. -/
theorem blk2_bias (c : Dev nD) (t : Fin cfg2.N) : iblk2 V c 3 t = V c main_v61 := by
  obtain ⟨-, -, -, -, -, -, -, e0, e1, -⟩ := idx2 t
  funext y
  show V c main_v61 (((cfg2.win 3).blk t).view.emb y) = V c main_v61 y
  refine congrArg (V c main_v61) (funext fun a => Fin.ext ?_)
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- The second weight window's block is the whole matrix at every point. -/
theorem blk2_wr (c : Dev nD) (t : Fin cfg2.N) : iblk2 V c 4 t = V c main_v60 := by
  obtain ⟨-, -, -, -, -, -, -, -, -, e0, e1, -⟩ := idx2 t
  funext y
  show V c main_v60 (((cfg2.win 4).blk t).view.emb y) = V c main_v60 y
  refine congrArg (V c main_v60) (funext fun a => Fin.ext ?_)
  match a with
  | ⟨0, _⟩ => show win2_4.index t (0 : Fin 2) * 64 + 1 * (y 0).val = (y 0).val; omega
  | ⟨1, _⟩ => show win2_4.index t (1 : Fin 2) * 64 + 1 * (y 1).val = (y 1).val; omega

/-- What point `t` writes back is block `t` of the layer of the whole arrays. -/
theorem flushed2 (c : Dev nD) (t : Fin cfg2.N) :
    (dat2 V c).flushed 5 t = ((cfg2.win 5).blk t).view.read (Elt Ideal)
      (layerT (fun v => v) (V c main_v58) (V c main_v45) (V c main_v59) (V c main_v61) (V c main_v60)) := by
  show (cfg2.win 5).cut (grid2.coords t) ((dat2 V c).after 5 t) = _
  rw [after2_5]
  unfold out2_5
  rw [View.canon_unit_zero offsets_zero]
  simp only [View.ld_unit_zero (S := S10000x64) offsets_zero, View.ld_unit_zero (S := S64x64) offsets_zero,
    View.ld_unit_zero (S := S1x64) offsets_zero]
  rw [pay2_eq, blk2_wl, blk2_bias, blk2_wr]
  obtain ⟨hn, -, -, -, -, -, -, -, -, -, -, e0, e1⟩ := idx2 t
  funext j
  obtain ⟨p, q, rfl⟩ : ∃ (p : Fin 10000) (q : Fin 64), j = ix2 p q := ⟨j 0, j 1, eq_ix2 j⟩
  -- the output block's entry (p, q) is the array's entry (10000·t + p, q)
  have hemb : ((cfg2.win 5).blk t).view.emb (ix2 p q) = ix2 (rowAt t.val hn p) q := by
    funext a; apply Fin.ext
    match a with
    | ⟨0, _⟩ => show win2_5.index t (0 : Fin 2) * 10000 + 1 * p.val = t.val * 10000 + p.val; omega
    | ⟨1, _⟩ => show win2_5.index t (1 : Fin 2) * 64 + 1 * q.val = q.val; omega
  show layerT (fun v => v) (iblk2 V c 0 t) (iblk2 V c 1 t) (V c main_v59) (V c main_v61) (V c main_v60) (ix2 p q)
    = layerT (fun v => v) (V c main_v58) (V c main_v45) (V c main_v59) (V c main_v61) (V c main_v60)
        (((cfg2.win 5).blk t).view.emb (ix2 p q))
  rw [hemb]
  exact layerT_rows (fun v => v) (V c main_v58) (V c main_v45) (V c main_v59) (V c main_v61) (V c main_v60)
    (iblk2 V c 0 t) (iblk2 V c 1 t) (rowAt t.val hn) (blk2_agg V c t hn) (blk2_feat V c t hn) p q

/-- An index of the output array is in point `t`'s block iff each coordinate is in the block's range on its axis. -/
theorem mem_blk2 (t : Fin cfg2.N) (i : S100000x64.Idx) :
    i ∈ ((cfg2.win 5).blk t).view.set ↔ ∀ a : Fin 2, win2_5.index t a * S10000x64.size a ≤ (i a).val
      ∧ (i a).val < win2_5.index t a * S10000x64.size a + S10000x64.size a := by
  show i ∈ ((View.whole main_v62).slice (win2_5.rect t)).set ↔ _
  rw [View.set_slice_whole, Rect.mem_set_unit]
  exact Iff.rfl

/-- Every entry of the output array is in the block of the point that works on its row. -/
theorem cover2 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ : ∃ t : Fin cfg2.N, t.val = (i 0).val / 10000 :=
    ⟨⟨(i 0).val / 10000, by rw [show cfg2.N = 10 from N_2]; omega⟩, rfl⟩
  obtain ⟨-, -, -, -, -, -, -, -, -, -, -, e0, e1⟩ := idx2 t
  refine ⟨t, flush2_5 t, ?_⟩
  rw [mem_blk2]
  intro a
  match a with
  | ⟨0, _⟩ =>
    show win2_5.index t (0 : Fin 2) * 10000 ≤ (i 0).val ∧ (i 0).val < win2_5.index t (0 : Fin 2) * 10000 + 10000
    omega
  | ⟨1, _⟩ =>
    show win2_5.index t (1 : Fin 2) * 64 ≤ (i 1).val ∧ (i 1).val < win2_5.index t (1 : Fin 2) * 64 + 64
    omega

/-- The output array after the region: the layer of the arrays the region was entered with. -/
theorem region2_out (c : Dev nD) :
    (dat2 V c).arrAt 5 cfg2.N
      = layerT (fun v => v) (V c main_v58) (V c main_v45) (V c main_v59) (V c main_v61) (V c main_v60) :=
  (dat2 V c).arrAt_eq_of_cover 5 _ (fun t _ => flushed2 V c t) cover2

end Cert.KernelIdeal.Sage

end
-- ==== Proof.HostChain.lean ====
/-
  The host side of the network, as functions of whole arrays, spelt with the reference program's operations.

  From the edge list `e` (two rows of node numbers): `src e` and `dst e` are its rows; `degInv e` is, per node, one over
  the larger of one and the number of edges that end there. For node features `h`, `aggP h s d di` gathers row `s r` of
  `h` for every edge `r` (a negative source counted from the end), adds it into row `d r` of a zero table, and scales
  each row by `di`: the neighbours' mean. A layer is `(agg · Wlᵀ + b) + h · Wrᵀ`, the hidden ones followed by the maximum
  with zero; the network is three layers. The reference's result is exactly this nesting (`res_eq`).
-/
import proofs.«129662_j1039382086190_1_alg».proof.Proof.Gen.ReferenceIdeal.Run

noncomputable section

namespace Cert.ReferenceIdeal.Sage

open Idealize.ShloMosaic Idealize.ShloMosaic.TcCoe Idealize.SL.Sem Cert.ReferenceIdeal
open Cert.ReferenceIdeal.Facts₀ Cert.ReferenceIdeal.Facts

variable {F : FTy → Type} [FloatOps F]

/-- The edges' source nodes: the edge list's first row. -/
def src (e : Vec F S2x1600000 .i32) : Vec F S1600000 .i32 :=
  shapeCast _ (extractStridedSlice S1x1600000 ![0, 0] e slices_S2x1600000_S1x1600000_0_0) shapeCasts_S1x1600000_S1600000

/-- The edges' destination nodes: the edge list's second row. -/
def dst (e : Vec F S2x1600000 .i32) : Vec F S1600000 .i32 :=
  shapeCast _ (extractStridedSlice S1x1600000 ![1, 0] e slices_S2x1600000_S1x1600000_1_0) shapeCasts_S1x1600000_S1600000

/-- One over each node's in-degree, the degree taken at least one. -/
def degInv (e : Vec F S2x1600000 .i32) : Vec F S100000 .f32 :=
  Host.divf (broadcastInDim S100000 ![] bcast_S_S100000 (constant (F := F) S_ .f32 0x3F800000#32))
    (maximumf
      (Host.scatterAdd scatter_S100000_S1600000x1_S1600000_n_0_0_1
        (broadcastInDim S100000 ![] bcast_S_S100000 (constant (F := F) S_ .f32 0x00000000#32))
        (broadcastInDim S1600000x1 ![0] bcast_S1600000_S1600000x1_0 (dst e))
        (broadcastInDim S1600000 ![] bcast_S_S1600000 (constant (F := F) S_ .f32 0x3F800000#32)))
      (broadcastInDim S100000 ![] bcast_S_S100000 (constant (F := F) S_ .f32 0x3F800000#32)))

/-- The neighbours' mean of the features `h`, from the sources `s`, the destinations `d` and the inverse degrees `di`. -/
def aggP (h : Vec F S100000x64 .f32) (s d : Vec F S1600000 .i32) (di : Vec F S100000 .f32) : Vec F S100000x64 .f32 :=
  mulf
    (Host.scatterAdd scatter_S100000x64_S1600000x1_S1600000x64_1_0_0_1
      (broadcastInDim S100000x64 ![] bcast_S_S100000x64 (constant (F := F) S_ .f32 0x00000000#32))
      (broadcastInDim S1600000x1 ![0] bcast_S1600000_S1600000x1_0 d)
      (Host.gather gather_S100000x64_S1600000x1_S1600000x64_1_0_n_n_0_1_164 h
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))))
    (broadcastInDim S100000x64 ![0, 1] bcast_S100000x1_S100000x64_0_1 (broadcastInDim S100000x1 ![0] bcast_S100000_S100000x1_0 di))

/-- The dense part of a layer as the reference groups it: the bias joins the first product before the second is added. -/
def refLin (A H : Vec F S100000x64 .f32) (Wl : Vec F S64x64 .f32) (b : Vec F S64 .f32) (Wr : Vec F S64x64 .f32) :
    Vec F S100000x64 .f32 :=
  addf
    (addf (Host.dotGeneral dot_S100000x64_S64x64_S100000x64_1_0_0_1_n_n none A (transpose S64x64 [1, 0] Wl transposes_S64x64_S64x64_1_0))
      (broadcastInDim S100000x64 ![0, 1] bcast_S1x64_S100000x64_0_1 (broadcastInDim S1x64 ![1] bcast_S64_S1x64_1 b)))
    (Host.dotGeneral dot_S100000x64_S64x64_S100000x64_1_0_0_1_n_n none H (transpose S64x64 [1, 0] Wr transposes_S64x64_S64x64_1_0))

/-- A hidden layer: the dense part, then the maximum with zero. -/
def refRelu (A H : Vec F S100000x64 .f32) (Wl : Vec F S64x64 .f32) (b : Vec F S64 .f32) (Wr : Vec F S64x64 .f32) :
    Vec F S100000x64 .f32 :=
  maximumf (refLin A H Wl b Wr) (broadcastInDim S100000x64 ![] bcast_S_S100000x64 (constant (F := F) S_ .f32 0x00000000#32))

/-- A hidden layer on the features `h` over the edges `e`. -/
def hidden (h : Vec F S100000x64 .f32) (e : Vec F S2x1600000 .i32) (Wl : Vec F S64x64 .f32) (b : Vec F S64 .f32)
    (Wr : Vec F S64x64 .f32) : Vec F S100000x64 .f32 :=
  refRelu (aggP h (src e) (dst e) (degInv e)) h Wl b Wr

/-- The last layer on the features `h` over the edges `e`: no activation. -/
def final (h : Vec F S100000x64 .f32) (e : Vec F S2x1600000 .i32) (Wl : Vec F S64x64 .f32) (b : Vec F S64 .f32)
    (Wr : Vec F S64x64 .f32) : Vec F S100000x64 .f32 :=
  refLin (aggP h (src e) (dst e) (degInv e)) h Wl b Wr

/-- The network: two hidden layers and the last one. -/
def net (x : Vec F S100000x64 .f32) (e : Vec F S2x1600000 .i32) (Wl0 : Vec F S64x64 .f32) (b0 : Vec F S64 .f32)
    (Wr0 Wl1 : Vec F S64x64 .f32) (b1 : Vec F S64 .f32) (Wr1 Wl2 : Vec F S64x64 .f32) (b2 : Vec F S64 .f32)
    (Wr2 : Vec F S64x64 .f32) : Vec F S100000x64 .f32 :=
  final (hidden (hidden x e Wl0 b0 Wr0) e Wl1 b1 Wr1) e Wl2 b2 Wr2

/-- The reference's result, as its run states it, is the network of its arguments: the run's term is this nesting
    written out. -/
theorem res_eq (m : (ℓ : Loc nD τ sig) → Buf (Elt F) ℓ) (c : Dev nD) :
    Cert.ReferenceIdeal.Value.res_main_v76 (F := F) m c
      = net (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  unfold Cert.ReferenceIdeal.Value.res_main_v76
  rfl

end Cert.ReferenceIdeal.Sage

end
-- ==== Proof.Stretch.lean ====
/-
  The kernel program's three stretches of host operations, each read at the buffers the next pallas_call takes, from
  any contents `U` of the buffers before the stretch.

  The first stretch makes the sources, the destinations and the inverse degrees from the edge list, the first neighbour
  mean from the input features, and the first layer's transposed weights and bias row. The second and the third make
  only the next neighbour mean — from the previous layer's output array and the same sources, destinations and inverse
  degrees — and the next layer's transposed weights and bias row. These are the reference's own operations
  (`Cert.ReferenceIdeal.Sage`), so each buffer is read as that function of earlier buffers.
-/
import proofs.«129662_j1039382086190_1_alg».proof.Proof.Gen.KernelIdeal.Launch
import proofs.«129662_j1039382086190_1_alg».proof.Proof.HostChain
import Idealize.ShloMosaic.PureOps.Ideal

set_option maxRecDepth 8192

noncomputable section

namespace Cert.KernelIdeal.Sage

open Idealize.ShloMosaic Idealize.ShloMosaic.TcCoe Idealize.SL.Sem Idealize.ShloMosaic.StableHlo
open Cert.KernelIdeal Cert.KernelIdeal.Gen

variable (U : Valuation τ sig (Elt Ideal))

/-! ## The first stretch -/

theorem s0_src : after (hostOps0 (F := Ideal)) U (Proc.devRef .tc main_v1) = Cert.ReferenceIdeal.Sage.src (F := Ideal) (U (Proc.devRef .tc main_arg1)) := by
  after_results_simp <;> rfl

theorem s0_dst : after (hostOps0 (F := Ideal)) U (Proc.devRef .tc main_v3) = Cert.ReferenceIdeal.Sage.dst (F := Ideal) (U (Proc.devRef .tc main_arg1)) := by
  after_results_simp <;> rfl

theorem s0_degInv : after (hostOps0 (F := Ideal)) U (Proc.devRef .tc main_v11) = Cert.ReferenceIdeal.Sage.degInv (F := Ideal) (U (Proc.devRef .tc main_arg1)) := by
  after_results_simp <;> rfl

theorem s0_agg : after (hostOps0 (F := Ideal)) U (Proc.devRef .tc main_v24)
    = Cert.ReferenceIdeal.Sage.aggP (F := Ideal) (U (Proc.devRef .tc main_arg0)) (Cert.ReferenceIdeal.Sage.src (F := Ideal) (U (Proc.devRef .tc main_arg1))) (Cert.ReferenceIdeal.Sage.dst (F := Ideal) (U (Proc.devRef .tc main_arg1)))
        (Cert.ReferenceIdeal.Sage.degInv (F := Ideal) (U (Proc.devRef .tc main_arg1))) := by
  after_results_simp <;> rfl

theorem s0_feat : after (hostOps0 (F := Ideal)) U (Proc.devRef .tc main_arg0) = U (Proc.devRef .tc main_arg0) := by
  after_results_simp <;> rfl

theorem s0_wl : after (hostOps0 (F := Ideal)) U (Proc.devRef .tc main_v25)
    = transpose S64x64 [1, 0] (U (Proc.devRef .tc main_arg2)) Facts₀.transposes_S64x64_S64x64_1_0 := by
  after_results_simp <;> rfl

theorem s0_wr : after (hostOps0 (F := Ideal)) U (Proc.devRef .tc main_v26)
    = transpose S64x64 [1, 0] (U (Proc.devRef .tc main_arg4)) Facts₀.transposes_S64x64_S64x64_1_0 := by
  after_results_simp <;> rfl

theorem s0_bias : after (hostOps0 (F := Ideal)) U (Proc.devRef .tc main_v27)
    = shapeCast S1x64 (U (Proc.devRef .tc main_arg3)) Facts₀.shapeCasts_S64_S1x64 := by
  after_results_simp <;> rfl

/-- The later layers' weights and biases pass through the first stretch untouched. -/
theorem s0_keep5 : after (hostOps0 (F := Ideal)) U (Proc.devRef .tc main_arg5) = U (Proc.devRef .tc main_arg5) := by
  after_results_simp <;> rfl
theorem s0_keep6 : after (hostOps0 (F := Ideal)) U (Proc.devRef .tc main_arg6) = U (Proc.devRef .tc main_arg6) := by
  after_results_simp <;> rfl
theorem s0_keep7 : after (hostOps0 (F := Ideal)) U (Proc.devRef .tc main_arg7) = U (Proc.devRef .tc main_arg7) := by
  after_results_simp <;> rfl
theorem s0_keep8 : after (hostOps0 (F := Ideal)) U (Proc.devRef .tc main_arg8) = U (Proc.devRef .tc main_arg8) := by
  after_results_simp <;> rfl
theorem s0_keep9 : after (hostOps0 (F := Ideal)) U (Proc.devRef .tc main_arg9) = U (Proc.devRef .tc main_arg9) := by
  after_results_simp <;> rfl
theorem s0_keep10 : after (hostOps0 (F := Ideal)) U (Proc.devRef .tc main_arg10) = U (Proc.devRef .tc main_arg10) := by
  after_results_simp <;> rfl

/-! ## The second stretch -/

theorem s1_agg : after (hostOps1 (F := Ideal)) U (Proc.devRef .tc main_v41)
    = Cert.ReferenceIdeal.Sage.aggP (F := Ideal) (U (Proc.devRef .tc main_v28)) (U (Proc.devRef .tc main_v1)) (U (Proc.devRef .tc main_v3))
        (U (Proc.devRef .tc main_v11)) := by
  after_results_simp <;> rfl

theorem s1_feat : after (hostOps1 (F := Ideal)) U (Proc.devRef .tc main_v28) = U (Proc.devRef .tc main_v28) := by
  after_results_simp <;> rfl

theorem s1_src : after (hostOps1 (F := Ideal)) U (Proc.devRef .tc main_v1) = U (Proc.devRef .tc main_v1) := by
  after_results_simp <;> rfl

theorem s1_dst : after (hostOps1 (F := Ideal)) U (Proc.devRef .tc main_v3) = U (Proc.devRef .tc main_v3) := by
  after_results_simp <;> rfl

theorem s1_degInv : after (hostOps1 (F := Ideal)) U (Proc.devRef .tc main_v11) = U (Proc.devRef .tc main_v11) := by
  after_results_simp <;> rfl

theorem s1_wl : after (hostOps1 (F := Ideal)) U (Proc.devRef .tc main_v42)
    = transpose S64x64 [1, 0] (U (Proc.devRef .tc main_arg5)) Facts₀.transposes_S64x64_S64x64_1_0 := by
  after_results_simp <;> rfl

theorem s1_wr : after (hostOps1 (F := Ideal)) U (Proc.devRef .tc main_v43)
    = transpose S64x64 [1, 0] (U (Proc.devRef .tc main_arg7)) Facts₀.transposes_S64x64_S64x64_1_0 := by
  after_results_simp <;> rfl

theorem s1_bias : after (hostOps1 (F := Ideal)) U (Proc.devRef .tc main_v44)
    = shapeCast S1x64 (U (Proc.devRef .tc main_arg6)) Facts₀.shapeCasts_S64_S1x64 := by
  after_results_simp <;> rfl

/-- The last layer's weights and bias pass through the second stretch untouched. -/
theorem s1_keep8 : after (hostOps1 (F := Ideal)) U (Proc.devRef .tc main_arg8) = U (Proc.devRef .tc main_arg8) := by
  after_results_simp <;> rfl
theorem s1_keep9 : after (hostOps1 (F := Ideal)) U (Proc.devRef .tc main_arg9) = U (Proc.devRef .tc main_arg9) := by
  after_results_simp <;> rfl
theorem s1_keep10 : after (hostOps1 (F := Ideal)) U (Proc.devRef .tc main_arg10) = U (Proc.devRef .tc main_arg10) := by
  after_results_simp <;> rfl

/-! ## The third stretch -/

theorem s2_agg : after (hostOps2 (F := Ideal)) U (Proc.devRef .tc main_v58)
    = Cert.ReferenceIdeal.Sage.aggP (F := Ideal) (U (Proc.devRef .tc main_v45)) (U (Proc.devRef .tc main_v1)) (U (Proc.devRef .tc main_v3))
        (U (Proc.devRef .tc main_v11)) := by
  after_results_simp <;> rfl

theorem s2_feat : after (hostOps2 (F := Ideal)) U (Proc.devRef .tc main_v45) = U (Proc.devRef .tc main_v45) := by
  after_results_simp <;> rfl

theorem s2_wl : after (hostOps2 (F := Ideal)) U (Proc.devRef .tc main_v59)
    = transpose S64x64 [1, 0] (U (Proc.devRef .tc main_arg8)) Facts₀.transposes_S64x64_S64x64_1_0 := by
  after_results_simp <;> rfl

theorem s2_wr : after (hostOps2 (F := Ideal)) U (Proc.devRef .tc main_v60)
    = transpose S64x64 [1, 0] (U (Proc.devRef .tc main_arg10)) Facts₀.transposes_S64x64_S64x64_1_0 := by
  after_results_simp <;> rfl

theorem s2_bias : after (hostOps2 (F := Ideal)) U (Proc.devRef .tc main_v61)
    = shapeCast S1x64 (U (Proc.devRef .tc main_arg9)) Facts₀.shapeCasts_S64_S1x64 := by
  after_results_simp <;> rfl

end Cert.KernelIdeal.Sage

end
-- ==== Proof.Bridge.lean ====
/-
  The reference's layer is the kernel's layer of the same arrays.

  The reference forms `(agg · Wlᵀ + bias) + h · Wrᵀ` on whole arrays, its bias vector broadcast over the rows; the kernel
  forms `(agg · Wlᵀ + h · Wrᵀ) + bias` with the bias as a `[1, 64]` row. Entry by entry these are the same three extended
  reals added in two orders (`Cert.Sage.refLayer_eq`); the maximum with zero is applied to equal numbers.
-/
import proofs.«129662_j1039382086190_1_alg».proof.Proof.HostChain
import proofs.«129662_j1039382086190_1_alg».proof.Proof.Gen.KernelIdeal
import proofs.«129662_j1039382086190_1_alg».proof.Proof.Spec

noncomputable section

namespace Cert.Sage

open Idealize.ShloMosaic Idealize.ShloMosaic.ValueIdx Cert.ReferenceIdeal.Sage

/-- The reference's product is the plain one: `[100000, 64] × [64, 64]`. -/
theorem refDot_eq_plain : Cert.ReferenceIdeal.dot_S100000x64_S64x64_S100000x64_1_0_0_1_n_n = DotDims.plain 100000 64 64 := rfl

/-- The dense part of a layer, the reference's grouping against the kernel's. -/
theorem refLin_eq (A H : FVec Ideal ⟨2, ![100000, 64]⟩ .f32) (Wl Wr : FVec Ideal ⟨2, ![64, 64]⟩ .f32) (b : FVec Ideal ⟨1, ![64]⟩ .f32) :
    refLin (F := Ideal) A H Wl b Wr
      = layerT (fun v => v) A H
          (transpose ⟨2, ![64, 64]⟩ [1, 0] Wl Cert.KernelIdeal.Facts₀.transposes_S64x64_S64x64_1_0)
          (shapeCast ⟨2, ![1, 64]⟩ b Cert.KernelIdeal.Facts₀.shapeCasts_S64_S1x64)
          (transpose ⟨2, ![64, 64]⟩ [1, 0] Wr Cert.KernelIdeal.Facts₀.transposes_S64x64_S64x64_1_0) :=
  refLayer_eq _ refDot_eq_plain _ _ _ A H _ _ b

/-- A hidden layer: the maximum with zero of equal dense parts. -/
theorem refRelu_eq (A H : FVec Ideal ⟨2, ![100000, 64]⟩ .f32) (Wl Wr : FVec Ideal ⟨2, ![64, 64]⟩ .f32) (b : FVec Ideal ⟨1, ![64]⟩ .f32) :
    refRelu (F := Ideal) A H Wl b Wr
      = layerT relu0 A H
          (transpose ⟨2, ![64, 64]⟩ [1, 0] Wl Cert.KernelIdeal.Facts₀.transposes_S64x64_S64x64_1_0)
          (shapeCast ⟨2, ![1, 64]⟩ b Cert.KernelIdeal.Facts₀.shapeCasts_S64_S1x64)
          (transpose ⟨2, ![64, 64]⟩ [1, 0] Wr Cert.KernelIdeal.Facts₀.transposes_S64x64_S64x64_1_0) := by
  unfold refRelu
  rw [refLin_eq]
  rfl

end Cert.Sage

end
-- ==== Proof.KernelValue.lean ====
/-
  The kernel program's result buffer at the end of its run, as the network of its launch arrays.

  The run's buffer contents are a fold through @main: a stretch of host operations, a pallas_call, a stretch, a
  pallas_call, a stretch, a pallas_call (`W0` … `W6`). Walking it forwards: after the first stretch the first call's
  operands hold the neighbour mean of the input features, the features, and the first layer's transposed weights and
  bias row; the call leaves its output array at one hidden layer of those (the region's output, the two groupings of the
  layer's sum identified); no stretch and no call writes the sources, the destinations, the inverse degrees or a later
  layer's weights; and so on twice more.
-/
import proofs.«129662_j1039382086190_1_alg».proof.Proof.Region0
import proofs.«129662_j1039382086190_1_alg».proof.Proof.Region1
import proofs.«129662_j1039382086190_1_alg».proof.Proof.Region2
import proofs.«129662_j1039382086190_1_alg».proof.Proof.Stretch
import proofs.«129662_j1039382086190_1_alg».proof.Proof.Bridge

set_option maxRecDepth 16384

noncomputable section

namespace Cert.KernelIdeal.Sage

open Idealize.ShloMosaic Idealize.ShloMosaic.TcCoe Idealize.ShloMosaic.ValueIdx Idealize.ShloMosaic.Pipeline
open Idealize.SL.Sem Cert.KernelIdeal Cert.KernelIdeal.Gen Cert.Sage Cert.ReferenceIdeal.Sage

variable (m : (ℓ : Loc nD τ sig) → Buf (Elt Ideal) ℓ) (ρ : Dev nD → PrngReg) (c : Dev nD)

/-! ## At the first call's entry (`W1`) -/

theorem w1_src : W1 m ρ c (Proc.devRef .tc main_v1) = src (F := Ideal) (m ((c.tc : Thread nD τ).loc main_arg1)) := s0_src (W0 m ρ c)
theorem w1_dst : W1 m ρ c (Proc.devRef .tc main_v3) = dst (F := Ideal) (m ((c.tc : Thread nD τ).loc main_arg1)) := s0_dst (W0 m ρ c)
theorem w1_degInv : W1 m ρ c (Proc.devRef .tc main_v11) = degInv (F := Ideal) (m ((c.tc : Thread nD τ).loc main_arg1)) := s0_degInv (W0 m ρ c)

/-- The first call's output array: one hidden layer of the input features. -/
theorem w2_out : W2 m ρ c (Proc.devRef .tc main_v28) = hidden (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W2_arr m ρ c 5).trans ((region0_out (V1 m ρ) c).trans ?_)
  show layerT relu0 (W1 m ρ c (Proc.devRef .tc main_v24)) (W1 m ρ c (Proc.devRef .tc main_arg0))
    (W1 m ρ c (Proc.devRef .tc main_v25)) (W1 m ρ c (Proc.devRef .tc main_v27)) (W1 m ρ c (Proc.devRef .tc main_v26)) = _
  rw [show W1 m ρ c (Proc.devRef .tc main_v24) = _ from s0_agg (W0 m ρ c),
    show W1 m ρ c (Proc.devRef .tc main_arg0) = _ from s0_feat (W0 m ρ c),
    show W1 m ρ c (Proc.devRef .tc main_v25) = _ from s0_wl (W0 m ρ c),
    show W1 m ρ c (Proc.devRef .tc main_v27) = _ from s0_bias (W0 m ρ c),
    show W1 m ρ c (Proc.devRef .tc main_v26) = _ from s0_wr (W0 m ρ c)]
  exact (refRelu_eq _ _ _ _ _).symm

/-! ## Across the first call (`W2`): what it does not write -/

theorem w2_src : W2 m ρ c (Proc.devRef .tc main_v1) = src (F := Ideal) (m ((c.tc : Thread nD τ).loc main_arg1)) :=
  (W2_of_ne m ρ c main_v1 (by decide)).trans (w1_src m ρ c)
theorem w2_dst : W2 m ρ c (Proc.devRef .tc main_v3) = dst (F := Ideal) (m ((c.tc : Thread nD τ).loc main_arg1)) :=
  (W2_of_ne m ρ c main_v3 (by decide)).trans (w1_dst m ρ c)
theorem w2_degInv : W2 m ρ c (Proc.devRef .tc main_v11) = degInv (F := Ideal) (m ((c.tc : Thread nD τ).loc main_arg1)) :=
  (W2_of_ne m ρ c main_v11 (by decide)).trans (w1_degInv m ρ c)
theorem w2_arg5 : W2 m ρ c (Proc.devRef .tc main_arg5) = (m ((c.tc : Thread nD τ).loc main_arg5)) :=
  (W2_of_ne m ρ c main_arg5 (by decide)).trans (s0_keep5 (W0 m ρ c))
theorem w2_arg6 : W2 m ρ c (Proc.devRef .tc main_arg6) = (m ((c.tc : Thread nD τ).loc main_arg6)) :=
  (W2_of_ne m ρ c main_arg6 (by decide)).trans (s0_keep6 (W0 m ρ c))
theorem w2_arg7 : W2 m ρ c (Proc.devRef .tc main_arg7) = (m ((c.tc : Thread nD τ).loc main_arg7)) :=
  (W2_of_ne m ρ c main_arg7 (by decide)).trans (s0_keep7 (W0 m ρ c))
theorem w2_arg8 : W2 m ρ c (Proc.devRef .tc main_arg8) = (m ((c.tc : Thread nD τ).loc main_arg8)) :=
  (W2_of_ne m ρ c main_arg8 (by decide)).trans (s0_keep8 (W0 m ρ c))
theorem w2_arg9 : W2 m ρ c (Proc.devRef .tc main_arg9) = (m ((c.tc : Thread nD τ).loc main_arg9)) :=
  (W2_of_ne m ρ c main_arg9 (by decide)).trans (s0_keep9 (W0 m ρ c))
theorem w2_arg10 : W2 m ρ c (Proc.devRef .tc main_arg10) = (m ((c.tc : Thread nD τ).loc main_arg10)) :=
  (W2_of_ne m ρ c main_arg10 (by decide)).trans (s0_keep10 (W0 m ρ c))

/-! ## The second call -/

/-- The second call's output array: a hidden layer of the first call's output. -/
theorem w4_out : W4 m ρ c (Proc.devRef .tc main_v45) = hidden (F := Ideal) (hidden (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6)) (m ((c.tc : Thread nD τ).loc main_arg7)) := by
  refine (W4_arr m ρ c 5).trans ((region1_out (V3 m ρ) c).trans ?_)
  show layerT relu0 (W3 m ρ c (Proc.devRef .tc main_v41)) (W3 m ρ c (Proc.devRef .tc main_v28))
    (W3 m ρ c (Proc.devRef .tc main_v42)) (W3 m ρ c (Proc.devRef .tc main_v44)) (W3 m ρ c (Proc.devRef .tc main_v43)) = _
  rw [show W3 m ρ c (Proc.devRef .tc main_v41) = _ from s1_agg (W2 m ρ c),
    show W3 m ρ c (Proc.devRef .tc main_v28) = _ from s1_feat (W2 m ρ c),
    show W3 m ρ c (Proc.devRef .tc main_v42) = _ from s1_wl (W2 m ρ c),
    show W3 m ρ c (Proc.devRef .tc main_v44) = _ from s1_bias (W2 m ρ c),
    show W3 m ρ c (Proc.devRef .tc main_v43) = _ from s1_wr (W2 m ρ c),
    w2_out, w2_src, w2_dst, w2_degInv, w2_arg5, w2_arg6, w2_arg7]
  exact (refRelu_eq _ _ _ _ _).symm

theorem w4_src : W4 m ρ c (Proc.devRef .tc main_v1) = src (F := Ideal) (m ((c.tc : Thread nD τ).loc main_arg1)) :=
  (W4_of_ne m ρ c main_v1 (by decide)).trans ((s1_src (W2 m ρ c)).trans (w2_src m ρ c))
theorem w4_dst : W4 m ρ c (Proc.devRef .tc main_v3) = dst (F := Ideal) (m ((c.tc : Thread nD τ).loc main_arg1)) :=
  (W4_of_ne m ρ c main_v3 (by decide)).trans ((s1_dst (W2 m ρ c)).trans (w2_dst m ρ c))
theorem w4_degInv : W4 m ρ c (Proc.devRef .tc main_v11) = degInv (F := Ideal) (m ((c.tc : Thread nD τ).loc main_arg1)) :=
  (W4_of_ne m ρ c main_v11 (by decide)).trans ((s1_degInv (W2 m ρ c)).trans (w2_degInv m ρ c))
theorem w4_arg8 : W4 m ρ c (Proc.devRef .tc main_arg8) = (m ((c.tc : Thread nD τ).loc main_arg8)) :=
  (W4_of_ne m ρ c main_arg8 (by decide)).trans ((s1_keep8 (W2 m ρ c)).trans (w2_arg8 m ρ c))
theorem w4_arg9 : W4 m ρ c (Proc.devRef .tc main_arg9) = (m ((c.tc : Thread nD τ).loc main_arg9)) :=
  (W4_of_ne m ρ c main_arg9 (by decide)).trans ((s1_keep9 (W2 m ρ c)).trans (w2_arg9 m ρ c))
theorem w4_arg10 : W4 m ρ c (Proc.devRef .tc main_arg10) = (m ((c.tc : Thread nD τ).loc main_arg10)) :=
  (W4_of_ne m ρ c main_arg10 (by decide)).trans ((s1_keep10 (W2 m ρ c)).trans (w2_arg10 m ρ c))

/-! ## The third call -/

/-- The result buffer at the end of the run: the network of the launch arrays. -/
theorem result_value : W6 m ρ c (Proc.devRef .tc main_v62)
    = net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W6_arr m ρ c 5).trans ((region2_out (V5 m ρ) c).trans ?_)
  show layerT (fun v => v) (W5 m ρ c (Proc.devRef .tc main_v58)) (W5 m ρ c (Proc.devRef .tc main_v45))
    (W5 m ρ c (Proc.devRef .tc main_v59)) (W5 m ρ c (Proc.devRef .tc main_v61)) (W5 m ρ c (Proc.devRef .tc main_v60)) = _
  rw [show W5 m ρ c (Proc.devRef .tc main_v58) = _ from s2_agg (W4 m ρ c),
    show W5 m ρ c (Proc.devRef .tc main_v45) = _ from s2_feat (W4 m ρ c),
    show W5 m ρ c (Proc.devRef .tc main_v59) = _ from s2_wl (W4 m ρ c),
    show W5 m ρ c (Proc.devRef .tc main_v61) = _ from s2_bias (W4 m ρ c),
    show W5 m ρ c (Proc.devRef .tc main_v60) = _ from s2_wr (W4 m ρ c),
    w4_out, w4_src, w4_dst, w4_degInv, w4_arg8, w4_arg9, w4_arg10]
  exact (refLin_eq _ _ _ _ _).symm

end Cert.KernelIdeal.Sage

end
-- ==== Proof.lean ====
/-
  A three-layer graph network (neighbour mean, two small products and a bias per layer, the maximum with zero after the
  first two layers) computed two ways: the kernel program runs each layer's dense part in a pallas_call over blocks of
  10000 nodes, the reference as whole-array host operations. Everything around the dense part — the edges' sources and
  destinations, the inverse degrees, the gather and the scatter-add of the neighbour mean — is the same host operations
  in both programs.

  On the extended reals the two agree exactly: a change of float format is the identity, a product into a zero
  accumulator is the plain sum over the 64 input channels, and the kernel's `(agg · Wlᵀ + h · Wrᵀ) + b` is the reference's
  `(agg · Wlᵀ + b) + h · Wrᵀ` because addition of extended reals is commutative and associative. No finiteness is used.

  The kernel program's result is read off its run (`Cert.KernelIdeal.Result.run_result`, the last buffer contents
  `W6`) and walked back through the three calls and the host operations between them
  (`Cert.KernelIdeal.Sage.result_value`); the reference's result is its run's term (`Cert.ReferenceIdeal.Sage.res_eq`).
  Both are `Cert.ReferenceIdeal.Sage.net` of the launch arrays.
-/
import proofs.«129662_j1039382086190_1_alg».proof.Defs
import proofs.«129662_j1039382086190_1_alg».proof.Proof.Gen.Kernel
import proofs.«129662_j1039382086190_1_alg».proof.Proof.Gen.Kernel.Skeleton
import proofs.«129662_j1039382086190_1_alg».proof.Proof.Gen.Kernel.Launch
import proofs.«129662_j1039382086190_1_alg».proof.Proof.Gen.Kernel.Points
import proofs.«129662_j1039382086190_1_alg».proof.Proof.Gen.Kernel.Frame
import proofs.«129662_j1039382086190_1_alg».proof.Proof.Gen.KernelIdeal
import proofs.«129662_j1039382086190_1_alg».proof.Proof.Gen.KernelIdeal.Skeleton
import proofs.«129662_j1039382086190_1_alg».proof.Proof.Gen.KernelIdeal.Launch
import proofs.«129662_j1039382086190_1_alg».proof.Proof.Gen.KernelIdeal.Points
import proofs.«129662_j1039382086190_1_alg».proof.Proof.Gen.KernelIdeal.Frame
import proofs.«129662_j1039382086190_1_alg».proof.Proof.Gen.ReferenceIdeal
import proofs.«129662_j1039382086190_1_alg».proof.Proof.Gen.Pre_finite_inputs
import proofs.«129662_j1039382086190_1_alg».proof.Proof.Gen.ReferenceIdeal.Run
import proofs.«129662_j1039382086190_1_alg».proof.Proof.KernelRun
import proofs.«129662_j1039382086190_1_alg».proof.Proof.KernelValue
import proofs.«129662_j1039382086190_1_alg».proof.Proof.HostChain
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference is host operations only: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the network of the arguments in their result. -/
theorem algebraic : Cert.algebraic_KernelIdeal_ReferenceIdeal := by
  intro m ρ m' ρ' _ hagree
  refine ⟨fun c => Cert.ReferenceIdeal.Sage.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
    (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Sage.result_value m ρ c), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Sage.res_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
